-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024 : Shape := ⟨1, ![1024]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg3 : IVec S4096x4096 32) (main_v13 : IVec S_ 1) (main_v15 : IVec S4096x4096 1) (main_c_5 : IVec S_ 1) : IVec S_ 1 :=
  let main_v16 : IVec S_ 1 := (fun x v => Host.reduce IntOp.andi x v reducesTo_S4096x4096_S_d0_1 h_S_) main_v15 main_c_5
  let main_v17 : IVec S_ 1 := andi main_v13 main_v16
  let main_c_6 : IVec S_ 32 := constantI S_ 32 1024#32
  let main_v18 : IVec S4096x4096 32 := broadcastInDim S4096x4096 ![] bcast_S_S4096x4096 main_c_6
  let main_v19 : IVec S4096x4096 1 := cmpi .slt main_arg3 main_v18
  let main_c_7 : IVec S_ 1 := constantI S_ 1 1#1
  let main_v20 : IVec S_ 1 := (fun x v => Host.reduce IntOp.andi x v reducesTo_S4096x4096_S_d0_1 h_S_) main_v19 main_c_7
  let main_v21 : IVec S_ 1 := andi main_v17 main_v20
  main_v21

def fn {F : FTy → Type} [FloatOps F] (main_arg0 : FVec F S8192x4096 .f32) (main_arg1 : FVec F S1024 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 4294966272#32
  let main_v14 : IVec S4096x4096 32 := broadcastInDim S4096x4096 ![] bcast_S_S4096x4096 main_c_4
  let main_v15 : IVec S4096x4096 1 := cmpi .sge main_arg3 main_v14
  let main_c_5 : IVec S_ 1 := constantI S_ 1 1#1
  fn_part1 (F := F) main_arg3 main_v13 main_v15 main_c_5
-- ==== Kernel.lean ====
abbrev S8192x4096 : Shape := ⟨2, ![8192, 4096]⟩
abbrev S1024 : Shape := ⟨1, ![1024]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 31
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S1, .i32⟩
  | .hbm, ⟨14, _⟩ => ⟨S_, .i32⟩
  | .hbm, ⟨15, _⟩ => ⟨S4096x4096x1, .i32⟩
  | .hbm, ⟨16, _⟩ => ⟨S4096x4096x1, .i1⟩
  | .hbm, ⟨17, _⟩ => ⟨S1x1x1, .i32⟩
  | .hbm, ⟨18, _⟩ => ⟨S4096x4096x1, .i32⟩
  | .hbm, ⟨19, _⟩ => ⟨S4096x4096x1, .i1⟩
  | .hbm, ⟨20, _⟩ => ⟨S4096x4096x1, .i1⟩
  | .hbm, ⟨21, _⟩ => ⟨S_, .i1⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | .hbm, ⟨28, _⟩ => ⟨S8192x4096, .bf16⟩
  | .hbm, ⟨29, _⟩ => ⟨S1x4096, .f32⟩
  | .hbm, ⟨30, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S1024_S4096x4096x1_S4096x4096_n_0_n_n_0_2_1_wf : GatherDims.WF S1024 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S1024_S4096x4096x1_S4096x4096_n_0_n_n_0_2_1 : GatherDims S1024 S4096x4096x1 S4096x4096 where
  offsetDims := []
  collapsedSliceDims := [0]
  operandBatchingDims := []
  startIndicesBatchingDims := []
  startIndexMap := [0]
  indexVectorDim := 2
  sliceSizes := ![1]
  wf := gather_S1024_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1024 : Shape := ⟨1, ![1024]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024, .f32⟩
  | .hbm, ⟨2, _⟩ => ⟨S4096, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S1024_S4096x4096x1_S4096x4096_n_0_n_n_0_2_1_wf : GatherDims.WF S1024 S4096x4096x1 S4096x4096 [] [0] [] [0] [] 2 ![1]
  dot_S8192x4096_S4096x4096_S8192x4096_1_1_0_0_n_n_wf : DotDims.WF S8192x4096 S4096x4096 S8192x4096 [1] [1] [0] [0] [] []

variable [Facts₀]

def gather_S1024_S4096x4096x1_S4096x4096_n_0_n_n_0_2_1 : GatherDims S1024 S4096x4096x1 S4096x4096 where
  offsetDims := []
  collapsedSliceDims := [0]
  operandBatchingDims := []
  startIndicesBatchingDims := []
  startIndexMap := [0]
  indexVectorDim := 2
  sliceSizes := ![1]
  wf := gather_S1024_S4096x4096x1_S4096x4096_n_0_n_n_0_2_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point's body leaves behind, case by case, as pure functions of what it read.

  The kernel contracts over four blocks of 1024; a scratch accumulator carries the partial sum from one step to the
  next. At the first step it is reset to zero before the block product is added; at every step the block product is
  added; at the last step the accumulator plus the bias row is stored to the output block. Each lemma reads the
  stores a case makes back as one value: the store covers the whole buffer, so the buffer holds the stored payload.
-/
import proofs.«430650_j62826781606456_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The stores and loads of the body all start at the origin of their buffers. -/
theorem hz : (![0, 0] : Fin 2 → Nat) = fun _ => 0 := funext fun a => by fin_cases a <;> rfl

/-- At a middle step of the contraction the scratch accumulator ends at what it held plus the product of the two input
    blocks: the body's one covering store, its loads reading the whole buffers. -/
theorem scratch_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- At the last step of the contraction the scratch accumulator ends the same way: what it held plus the product of
    the two input blocks. -/
theorem scratch_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- At the first step of the contraction the body stores the zero block into the scratch accumulator, reads it back
    and adds the product of the two input blocks: the accumulator ends at zero plus that product, whatever it held. -/
theorem scratch_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h7.read_unread, View.ld_unit_zero (S := S1024x1024) hz]

/-- At the last step the output block is the accumulator just stored, read back, plus the bias row laid along every
    row of the block. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1x1024) hz, View.readCov_unit_zero (S := S1024x1024) _ hz]

end Cert.KernelIdeal.Pieces

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.Payload.lean ====
/-
  The body's three stored values read at an entry (p, q) of a 1024 × 1024 block, on the extended reals.
-/
import proofs.«430650_j62826781606456_1_alg».proof.Proof.Gen.KernelIdeal.Frame
import proofs.«430650_j62826781606456_1_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.TcCoe Idealize.ShloMosaic.ValueIdx Idealize.SL.Sem Cert.KernelIdeal Cert.KernelIdeal.Gen
open scoped BigOperators

/-- The block the first step resets the accumulator to is zero everywhere. -/
theorem pay1_apply (p q : Fin 1024) : k0_pay1 (F := Ideal) (ix2 p q) = 0 := by
  unfold k0_pay1
  simp only [shapeCast_self]
  show Ideal.ofBits .f32 0x00000000#32 = 0
  exact Ideal.ofBits_zero_f32

/-- One step of the contraction at entry (p, q): what the accumulator held there plus the sum over the block's 1024
    contraction indices r of x0 (p, r) · x1 (r, q); the product into a zero accumulator is that plain sum, and the two
    operands' change of format is the identity on extended reals. -/
theorem pay2_apply (acc : Vec Ideal S1024x1024 .f32) (x0 x1 : Vec Ideal S1024x1024 .bf16) (p q : Fin 1024) :
    k0_pay2 (F := Ideal) acc x0 x1 (ix2 p q) = acc (ix2 p q) + ∑ r : Fin 1024, x0 (ix2 p r) * x1 (ix2 r q) := by
  unfold k0_pay2
  simp only [shapeCast_self]
  show acc (ix2 p q) + FloatOps.matmul (F := Ideal) dot_S1024x1024_S1024x1024_S1024x1024_1_0_0_1_n_n none x0 x1 (constant (F := Ideal) S1024x1024 .f32 0x00000000#32) (ix2 p q) = _
  rw [Cert.LibPlainDot.eq_plain dot_S1024x1024_S1024x1024_S1024x1024_1_0_0_1_n_n rfl rfl rfl rfl rfl rfl, Ideal.matmul_constant_zero_apply]
  exact congrArg (acc (ix2 p q) + ·) (Cert.LibPlainDot.plain_sum x0 x1 p q)

/-- The last step's output at entry (p, q): the accumulator there plus the bias row's entry q, the row laid along
    every row of the block. -/
theorem pay3_apply (a : Vec Ideal S1024x1024 .f32) (x2 : Vec Ideal S1x1024 .f32) (p q : Fin 1024) :
    k0_pay3 (F := Ideal) a x2 (ix2 p q) = a (ix2 p q) + x2 (ix2 (0 : Fin 1) q) := by
  unfold k0_pay3
  simp only [shapeCast_self]
  show a (ix2 p q) + broadcastTo S1024x1024 x2 broadcasts_S1x1024_S1024x1024 (ix2 p q) = _
  refine congrArg (a (ix2 p q) + ·) ?_
  refine broadcastTo_apply x2 broadcasts_S1x1024_S1024x1024 (ix2 p q) (ix2 (0 : Fin 1) q) (fun a => ?_)
  match a with
  | ⟨0, _⟩ => rfl
  | ⟨1, _⟩ =>
    show q.val = if (1024 : Nat) = 1 then 0 else q.val
    rw [if_neg (by decide)]

end Cert.KernelIdeal.Payload

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Spec.lean ====
/-
  What both programs compute, as one function of the four argument arrays.

  The weight matrix is a codebook lookup: entry (o, k) is `values` at the word `w_idx (o, k)`. A word is read the way
  numpy reads an index: a negative word has the table's length 1024 added, and the gather then reads the table at the
  signed value of the result, clamped into [0, 1023] (`look`). The result at (b, o) is

      G (b, o) = Σ_{k < 4096} x (b, k) · look values (w_idx (o, k)) + bias o

  on the extended reals. For a word w with -1024 ≤ w < 1024 the wrapped word lies in [0, 1023] (`wrapW_range`), so
  the two comparisons that guard an out-of-range read, 0 ≤ wrapped and wrapped ≤ 1023, both hold (`wrap_sge`,
  `wrap_sle`). The contraction over 4096 indices is the sum of four runs of 1024 consecutive indices
  (`sum_4x1024`): addition of extended reals is associative and commutative, so no finiteness is needed for it.
-/
import Idealize.ShloMosaic.PureOps.Ideal
import Idealize.ShloMosaic.Lib.ValueIdx
import proofs.«430650_j62826781606456_1_alg».proof.Proof.LibBlockSum

noncomputable section

namespace Cert.Spec

open Idealize.ShloMosaic Idealize.ShloMosaic.ValueIdx
open scoped BigOperators

/-- The activations, [8192, 4096]. -/
abbrev SX : Shape := ⟨2, ![8192, 4096]⟩
/-- The codebook, [1024]. -/
abbrev SV : Shape := ⟨1, ![1024]⟩
/-- The bias, [4096]. -/
abbrev SB : Shape := ⟨1, ![4096]⟩
/-- The index words, [4096, 4096]: row o, column k. -/
abbrev SW : Shape := ⟨2, ![4096, 4096]⟩

/-! ## A word as an index into the codebook -/

/-- numpy's reading of a possibly negative index: a negative word has the table's length added. -/
def wrapW (w : BitVec 32) : BitVec 32 := Scalar.select (IntOp.cmpi .slt w 0#32) (IntOp.addi w 1024#32) w

/-- A word in [-1024, 1024) wraps into [0, 1023]. -/
theorem wrapW_range (w : BitVec 32) (hlo : -1024 ≤ w.toInt) (hhi : w.toInt < 1024) :
    0 ≤ (wrapW w).toInt ∧ (wrapW w).toInt ≤ 1023 := by
  unfold wrapW Scalar.select IntOp.cmpi IntOp.addi
  have h0 : (0#32 : BitVec 32).toInt = 0 := by decide
  have h1 : (1024#32 : BitVec 32).toInt = 1024 := by decide
  by_cases hn : w.toInt < 0
  · have hb : BitVec.ofBool (w.slt 0#32) = 1 := by
      simp only [BitVec.slt, h0]; simp [hn]
    rw [if_pos hb, BitVec.toInt_add, h1]
    have e : (w.toInt + 1024).bmod (2 ^ 32) = w.toInt + 1024 := by
      apply Int.bmod_eq_of_le <;> omega
    rw [e]; omega
  · have hb : ¬ BitVec.ofBool (w.slt 0#32) = 1 := by
      simp only [BitVec.slt, h0]; simp [hn]
    rw [if_neg hb]; omega

/-- The lower guard of an in-range read holds of a wrapped word in range. -/
theorem wrap_sge (w : BitVec 32) (hlo : -1024 ≤ w.toInt) (hhi : w.toInt < 1024) :
    IntOp.cmpi .sge (wrapW w) 0#32 = 1#1 := by
  have h := (wrapW_range w hlo hhi).1
  have h0 : (0#32 : BitVec 32).toInt = 0 := by decide
  unfold IntOp.cmpi
  simp only [BitVec.sle, h0]
  simp [h]

/-- The upper guard of an in-range read holds of a wrapped word in range. -/
theorem wrap_sle (w : BitVec 32) (hlo : -1024 ≤ w.toInt) (hhi : w.toInt < 1024) :
    IntOp.cmpi .sle (wrapW w) 1023#32 = 1#1 := by
  have h := (wrapW_range w hlo hhi).2
  have h0 : (1023#32 : BitVec 32).toInt = 1023 := by decide
  unfold IntOp.cmpi
  simp only [BitVec.sle, h0]
  simp [h]

/-- Every index word lies in [-1024, 1024): the range in which numpy's indexing of a table of 1024 entries is defined. -/
def InRange (w : SW.Idx → BitVec 32) : Prop := ∀ i, -1024 ≤ (w i).toInt ∧ (w i).toInt < 1024

/-- The codebook read at a word: wrapped, read signed, clamped into [0, 1023]. -/
def look (vals : SV.Idx → EReal) (w : BitVec 32) : EReal :=
  vals (ix1 ⟨min (wrapW w).toInt.toNat 1023, by omega⟩)

/-! ## The result -/

/-- Entry (b, o) of the result: the row b of x against the looked-up row o of the weights, plus the bias at o. -/
def G (x : SX.Idx → EReal) (vals : SV.Idx → EReal) (bias : SB.Idx → EReal) (w : SW.Idx → BitVec 32) : SX.Idx → EReal :=
  fun i => (∑ k : Fin 4096, x (ix2 (i 0) k) * look vals (w (ix2 (i 1) k))) + bias (ix1 (i 1))

/-! ## Four runs of 1024 consecutive indices are the 4096 indices -/

/-- The r-th index of the s-th run of 1024 is below 4096. -/
theorem run_lt (s : Fin 4) (r : Fin 1024) : 1024 * s.val + r.val < 4096 := by
  have := s.isLt; have := r.isLt; omega

/-- A sum over four runs of 1024 consecutive indices is the sum over all 4096 indices. -/
theorem sum_4x1024 {M : Type*} [AddCommMonoid M] (f : Fin 4096 → M) :
    ∑ s : Fin 4, ∑ r : Fin 1024, f ⟨1024 * s.val + r.val, run_lt s r⟩ = ∑ n : Fin 4096, f n :=
  Cert.BlockSum.sum_blocks 4 1024 f

/-- The same with the runs counted by the first four naturals. -/
theorem sum_range4x1024 {M : Type*} [AddCommMonoid M] (f : Fin 4096 → M) (g : ℕ → M)
    (hg : ∀ s : Fin 4, g s.val = ∑ r : Fin 1024, f ⟨1024 * s.val + r.val, run_lt s r⟩) :
    ∑ s ∈ Finset.range 4, g s = ∑ n : Fin 4096, f n := by
  rw [Cert.BlockSum.sum_range_4 g, ← sum_4x1024 f]
  exact Finset.sum_congr rfl fun s _ => hg s

end Cert.Spec

end
-- ==== Proof.LibHostRead.lean ====
/-
  Host operations read at an index.

  A `stablehlo.reduce` by `and` from 1 is 1 where every operand entry reducing into the result is 1; over a unit last
  axis that is one entry. A broadcast of an `[n, p]` array along a new last axis reads the operand at `(r, s)`. A reshape
  of `[n, a, b]` to `[n, a * b]` reads, at `(r, q)`, the operand at `(r, q / b, q % b)`.
-/
import Idealize.ShloMosaic.PureOps.Reduce
import Idealize.ShloMosaic.Lib.ReduceAll
import Idealize.ShloMosaic.Lib.ValueIdx
import Idealize.ShloMosaic.Lib.Pipeline.Value

namespace Cert.LibHostRead

open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a (List.mem_cons_self ..)
    have e : IntOp.andi 1#1 (f a) = 1#1 := by rw [ha]; decide
    rw [List.foldl_cons, e]
    exact foldl_andi_one f l (fun n hn => h n (List.mem_cons_of_mem _ hn))

/-- A `stablehlo.reduce` by `and` from 1 is 1 at `j` when every operand entry that reduces into `j` is 1. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ (fun i hi => ?_)
  rw [List.mem_filter] at hi
  exact hx i (by simpa using hi.2)

/-- Over a unit last axis the entries reducing into `(r, s)` are the one at `(r, s, 0)`. -/
theorem drop_unit_last {n p : Nat} (h : (⟨3, ![n, p, 1]⟩ : Shape).ReducesTo [2] ⟨2, ![n, p]⟩)
    (i : (⟨3, ![n, p, 1]⟩ : Shape).Idx) (r : Fin n) (s : Fin p) (hi : h.drop i = ix2 r s) : i = ix3 r s (0 : Fin 1) := by
  have h0 : (h.drop i 0).val = r.val := congrArg (fun k => (k 0).val) hi
  have h1 : (h.drop i 1).val = s.val := congrArg (fun k => (k 1).val) hi
  refine (eq_ix3 i).trans ?_
  have e0 : i 0 = r := Fin.ext h0
  have e1 : i 1 = s := Fin.ext h1
  have h2 : (i 2).val < 1 := (i 2).isLt
  have e2 : i 2 = (0 : Fin 1) := Fin.ext (by show (i 2).val = 0; omega)
  rw [e0, e1, e2]
  exact rfl

/-- The reduce by `and` from 1 over a unit last axis is 1 at `(r, s)` when the entry at `(r, s, 0)` is. -/
theorem reduce_andi_unit_last {n p : Nat} {u : Shape} (x : (⟨3, ![n, p, 1]⟩ : Shape).Idx → BitVec 1) (init : u.Idx → BitVec 1)
    (h : (⟨3, ![n, p, 1]⟩ : Shape).ReducesTo [2] ⟨2, ![n, p]⟩) (hu : 0 < u.numel) (r : Fin n) (s : Fin p)
    (hinit : init (Shape.Idx.first hu) = 1#1) (hx : x (ix3 r s (0 : Fin 1)) = 1#1) :
    Host.reduce IntOp.andi x init h hu (ix2 r s) = 1#1 :=
  reduce_andi_of_forall x init h hu _ hinit (fun i hi => by rw [drop_unit_last h i r s hi]; exact hx)

/-- An `[n, p]` array broadcast along a new last axis reads, at `(r, s, j)`, the operand at `(r, s)`. -/
theorem bcast_pairs_apply {α : Type} {n p c : Nat} (h : (⟨2, ![n, p]⟩ : Shape).BroadcastsInDim ⟨3, ![n, p, c]⟩ ![0, 1])
    (x : (⟨2, ![n, p]⟩ : Shape).Idx → α) (r : Fin n) (s : Fin p) (j : Fin c) :
    broadcastInDim ⟨3, ![n, p, c]⟩ ![0, 1] h x (ix3 r s j) = x (ix2 r s) := by
  refine broadcastInDim_apply _ h x _ _ (fun a => ?_)
  match a with
  | ⟨0, _⟩ =>
    show r.val = if n = 1 then 0 else r.val
    split
    · have := r.isLt; omega
    · rfl
  | ⟨1, _⟩ =>
    show s.val = if p = 1 then 0 else s.val
    split
    · have := s.isLt; omega
    · rfl

/-- An `[n, a, b]` array reshaped to `[n, a * b]` reads, at `(r, q)`, the operand at `(r, q / b, q % b)`. -/
theorem reshape_pairs_apply {α : Type} {n a b c : Nat} (hc : c = a * b) (hb : 0 < b)
    (x : (⟨3, ![n, a, b]⟩ : Shape).Idx → α) (h : (⟨3, ![n, a, b]⟩ : Shape).ShapeCasts ⟨2, ![n, c]⟩) (r : Fin n) (q : Fin c) :
    shapeCast ⟨2, ![n, c]⟩ x h (ix2 r q)
      = x (ix3 r ⟨q.val / b, by subst hc; exact Nat.div_lt_of_lt_mul (lt_of_lt_of_eq q.isLt (Nat.mul_comm a b))⟩ ⟨q.val % b, Nat.mod_lt _ hb⟩) := by
  subst hc
  refine shapeCast_apply x h _ _ ?_
  rw [Shape.rowMajor_val_three, Shape.rowMajor_val_two]
  show (r.val * a + q.val / b) * b + q.val % b = r.val * (a * b) + q.val
  rw [Nat.add_mul, Nat.mul_assoc, Nat.add_assoc, Nat.div_add_mod']

end Cert.LibHostRead
-- ==== Proof.HostSide.lean ====
/-
  What the three staged arrays hold when the kernel region is entered, at the ideal instance: the activations unchanged
  (a change of format is the identity), the weight at (k, o) the codebook read at the word w_idx (o, k) when every
  index word is in range (the guard of the fill-mode gather then holds everywhere), the bias as a row.
-/
import proofs.«430650_j62826781606456_1_alg».proof.Proof.Gen.KernelIdeal.Frame
import proofs.«430650_j62826781606456_1_alg».proof.Proof.Spec
import proofs.«430650_j62826781606456_1_alg».proof.Proof.LibHostRead

noncomputable section

namespace Cert.KernelIdeal.HostSide

open Idealize.ShloMosaic Idealize.ShloMosaic.TcCoe Idealize.ShloMosaic.ValueIdx Idealize.SL.Sem Cert.KernelIdeal Cert.KernelIdeal.Gen

/-- A vector of 4096 entries laid out as one row reads, at (0, q), the vector at q: both have row-major position q. -/
theorem row_of_vec {α : Type} (b : S4096.Idx → α) (h : S4096.ShapeCasts S1x4096) (q : Fin 4096) :
    shapeCast S1x4096 b h (ix2 (0 : Fin 1) q) = b (ix1 q) := by
  refine shapeCast_apply b h _ _ ?_
  rw [Shape.rowMajor_val_two, Shape.rowMajor_val_one]
  show q.val = 0 * 4096 + q.val
  omega

/-! ## The staged weights as one function of the codebook and the index words -/

/-- The index words transposed and wrapped: at (k, o) the word (o, k), with 1024 added when it is negative. -/
def wrapT (w : IVec S4096x4096 32) : IVec S4096x4096 32 :=
  select (cmpi .slt (transpose S4096x4096 [1, 0] w transposes_S4096x4096_S4096x4096_1_0)
      (broadcastInDim S4096x4096 ![] bcast_S_S4096x4096 (constantI S_ 32 0#32)))
    (addi (transpose S4096x4096 [1, 0] w transposes_S4096x4096_S4096x4096_1_0)
      (broadcastInDim S4096x4096 ![] bcast_S_S4096x4096 (constantI S_ 32 1024#32)))
    (transpose S4096x4096 [1, 0] w transposes_S4096x4096_S4096x4096_1_0)

/-- The gather's start indices: the wrapped words with a unit last axis. -/
def starts (w : IVec S4096x4096 32) : IVec S4096x4096x1 32 :=
  broadcastInDim S4096x4096x1 ![0, 1] bcast_S4096x4096_S4096x4096x1_0_1 (wrapT w)

/-- The fill-mode guard: 0 ≤ start ≤ 1023, reduced by `and` over the unit last axis. -/
def fillGuard (w : IVec S4096x4096 32) : IVec S4096x4096 1 :=
  Host.reduce IntOp.andi
    (andi (cmpi .sge (starts w) (broadcastInDim S4096x4096x1 ![] bcast_S_S4096x4096x1 (constantI S_ 32 0#32)))
      (cmpi .sle (starts w) (broadcastInDim S4096x4096x1 ![0, 1, 2] bcast_S1x1x1_S4096x4096x1_0_1_2
        (broadcastInDim S1x1x1 ![2] bcast_S1_S1x1x1_2 (constantI S1 32 1023#32)))))
    (constantI S_ 1 1#1) reducesTo_S4096x4096x1_S4096x4096_d2 h_S_

/-- The staged weights: the codebook gathered at the start indices where the guard holds, a fill value elsewhere,
    narrowed to the 16-bit format. -/
def staged (vals : FVec Ideal S1024 .f32) (w : IVec S4096x4096 32) : FVec Ideal S4096x4096 .bf16 :=
  truncf (F := Ideal) .bf16
    (select (fillGuard w) (Host.gather gather_S1024_S4096x4096x1_S4096x4096_n_0_n_n_0_2_1 vals (starts w))
      (broadcastInDim S4096x4096 ![] bcast_S_S4096x4096 (constant (F := Ideal) S_ .f32 0x7FC00000#32)))
    bitsLt_bf16_f32

/-- The wrapped transposed word at (k, o) is numpy's reading of the word at (o, k). -/
theorem wrapT_apply (w : IVec S4096x4096 32) (k o : Fin 4096) : wrapT w (ix2 k o) = Cert.Spec.wrapW (w (ix2 o k)) := by
  have ht : transpose S4096x4096 [1, 0] w transposes_S4096x4096_S4096x4096_1_0 (ix2 k o) = w (ix2 o k) :=
    transpose_apply [1, 0] w _ (ix2 k o) (ix2 o k) (fun b => by
      match b with
      | ⟨0, _⟩ => rfl
      | ⟨1, _⟩ => rfl)
  show Scalar.select (IntOp.cmpi .slt (transpose S4096x4096 [1, 0] w transposes_S4096x4096_S4096x4096_1_0 (ix2 k o)) 0#32)
      (IntOp.addi (transpose S4096x4096 [1, 0] w transposes_S4096x4096_S4096x4096_1_0 (ix2 k o)) 1024#32)
      (transpose S4096x4096 [1, 0] w transposes_S4096x4096_S4096x4096_1_0 (ix2 k o)) = _
  rw [ht]
  rfl

/-- The start index at (k, o, j) is numpy's reading of the word at (o, k). -/
theorem starts_apply (w : IVec S4096x4096 32) (k o : Fin 4096) (j : Fin 1) :
    starts w (ix3 k o j) = Cert.Spec.wrapW (w (ix2 o k)) := by
  unfold starts
  rw [Cert.LibHostRead.bcast_pairs_apply]
  exact wrapT_apply w k o

/-- With every word in range the guard holds everywhere. -/
theorem fillGuard_apply (w : IVec S4096x4096 32) (hr : Cert.Spec.InRange w) (k o : Fin 4096) : fillGuard w (ix2 k o) = 1#1 := by
  unfold fillGuard
  refine Cert.LibHostRead.reduce_andi_unit_last _ _ _ _ k o rfl ?_
  show IntOp.andi (IntOp.cmpi .sge (starts w (ix3 k o (0 : Fin 1))) 0#32)
      (IntOp.cmpi .sle (starts w (ix3 k o (0 : Fin 1))) 1023#32) = 1#1
  rw [starts_apply, Cert.Spec.wrap_sge _ (hr (ix2 o k)).1 (hr (ix2 o k)).2,
    Cert.Spec.wrap_sle _ (hr (ix2 o k)).1 (hr (ix2 o k)).2]
  decide

/-- The gather at (k, o) is the codebook read at the word (o, k). -/
theorem gather_apply (vals : FVec Ideal S1024 .f32) (w : IVec S4096x4096 32) (k o : Fin 4096) :
    Host.gather gather_S1024_S4096x4096x1_S4096x4096_n_0_n_n_0_2_1 vals (starts w) (ix2 k o)
      = Cert.Spec.look vals (w (ix2 o k)) := by
  have hi : takeIdx (ix2 k o : (⟨2, ![4096, 4096]⟩ : Shape).Idx) = ix3 k o (0 : Fin 1) := by
    funext a
    match a with
    | ⟨0, _⟩ => rfl
    | ⟨1, _⟩ => rfl
    | ⟨2, _⟩ => rfl
  refine (gather_take_apply (N := 1024) (R := 4096) (C := 4096) (by decide)
    gather_S1024_S4096x4096x1_S4096x4096_n_0_n_n_0_2_1_wf vals (starts w) (ix2 k o)).trans ?_
  unfold Cert.Spec.look
  refine congrArg vals (congrArg ix1 (Fin.ext ?_))
  show min (starts w (takeIdx (ix2 k o))).toInt.toNat 1023 = min (Cert.Spec.wrapW (w (ix2 o k))).toInt.toNat 1023
  rw [hi, starts_apply]

/-- With every word in range the staged weight at (k, o) is the codebook read at the word (o, k). -/
theorem staged_apply (vals : FVec Ideal S1024 .f32) (w : IVec S4096x4096 32) (hr : Cert.Spec.InRange w) (k o : Fin 4096) :
    staged vals w (ix2 k o) = Cert.Spec.look vals (w (ix2 o k)) := by
  unfold staged
  rw [truncf_apply, select_apply, fillGuard_apply w hr, select_one]
  exact gather_apply vals w k o

variable (m : (ℓ : Loc nD τ sig) → Buf (Elt Ideal) ℓ)

theorem V_x (c : Dev nD) (i : S8192x4096.Idx) :
    (V m c main_v3 : S8192x4096.Idx → EReal) i = (m ((c : Thread nD τ).loc main_arg0) : S8192x4096.Idx → EReal) i := by
  -- the staged activations are the argument narrowed to the 16-bit format
  have e : (V m c main_v3 : S8192x4096.Idx → EReal)
      = (truncf (F := Ideal) (s := S8192x4096) (φ := .f32) .bf16 (m ((c : Thread nD τ).loc main_arg0) : S8192x4096.Idx → EReal) bitsLt_bf16_f32 : S8192x4096.Idx → EReal) := by
    dsimp only [V]
    simp only [hostOps0, hostOps0_1, hostOps0_2, List.flatten_cons, List.flatten_nil, List.append_nil, List.cons_append,
      List.nil_append]
    after_results
  -- on the extended reals a narrowing of format leaves every entry as it is
  rw [e]
  rfl

theorem V_w (c : Dev nD) (hr : Cert.Spec.InRange (m ((c : Thread nD τ).loc main_arg3))) (k o : Fin 4096) :
    (V m c main_v2 : S4096x4096.Idx → EReal) (ix2 k o)
      = Cert.Spec.look (m ((c : Thread nD τ).loc main_arg1)) ((m ((c : Thread nD τ).loc main_arg3) : S4096x4096.Idx → BitVec 32) (ix2 o k)) := by
  -- the staged weights are `staged` of the codebook and the index words: each operation's function is first freed of
  -- the identity transports of its typed operands, then the operations are composed
  have e : (V m c main_v2 : S4096x4096.Idx → EReal)
      = staged (m ((c : Thread nD τ).loc main_arg1) : S1024.Idx → EReal) (m ((c : Thread nD τ).loc main_arg3) : S4096x4096.Idx → BitVec 32) := by
    dsimp only [V]
    simp only [hostOps0, hostOps0_1, hostOps0_2, List.flatten_cons, List.flatten_nil, List.append_nil, List.cons_append,
      List.nil_append, StableHlo.TRef.nullary, StableHlo.TRef.unary, StableHlo.TRef.binary, StableHlo.TRef.ternary, cast_eq]
    after_results_simp
    unfold staged fillGuard starts wrapT
    rfl
  rw [e]
  exact staged_apply _ _ hr k o

theorem V_b (c : Dev nD) (q : Fin 4096) :
    (V m c main_v4 : S1x4096.Idx → EReal) (ix2 (0 : Fin 1) q) = (m ((c : Thread nD τ).loc main_arg2) : S4096.Idx → EReal) (ix1 q) := by
  -- the staged bias is the argument laid out as one row
  have e : (V m c main_v4 : S1x4096.Idx → EReal)
      = (shapeCast S1x4096 (m ((c : Thread nD τ).loc main_arg2) : S4096.Idx → EReal) shapeCasts_S4096_S1x4096 : S1x4096.Idx → EReal) := by
    dsimp only [V]
    simp only [hostOps0, hostOps0_1, hostOps0_2, List.flatten_cons, List.flatten_nil, List.append_nil, List.cons_append,
      List.nil_append]
    after_results
    rfl
  rw [e]
  exact row_of_vec _ _ q

end Cert.KernelIdeal.HostSide

end
-- ==== Proof.KernelValue.lean ====
/-
  What the kernel's result array holds after the run: the specification of the four argument arrays.

  The grid's 128 points are 32 runs of four: a run is one (row block, column block) of the result, its four points the
  four steps of the contraction over blocks of 1024. A scratch accumulator is reset at a run's first step and gains one
  block product per step, so after step j it holds the sum of the block products of steps 0 … j (a fold, opened at an
  entry without enumerating points); at the last step the output block is that sum plus the bias row, and it is the only
  step that writes the block back. A block product at (p, q) is a sum over 1024 consecutive contraction indices, so the
  four of a run regroup into the sum over all 4096 — addition of extended reals is associative and commutative, nothing
  else is used. The weights the region finds are the codebook read at the transposed index words when every word is in
  range, the activations are unchanged, the bias row is the bias: each term is the reference's term. The 32 written
  blocks tile the result array.
-/
import proofs.«430650_j62826781606456_1_alg».proof.Proof.Gen.KernelIdeal.Value
import proofs.«430650_j62826781606456_1_alg».proof.Proof.Pieces
import proofs.«430650_j62826781606456_1_alg».proof.Proof.Payload
import proofs.«430650_j62826781606456_1_alg».proof.Proof.HostSide
import proofs.«430650_j62826781606456_1_alg».proof.Proof.Spec
import Idealize.ShloMosaic.Lib.Pipeline.Value
import Idealize.ShloMosaic.Lib.ValueIdx

noncomputable section

namespace Cert.KernelIdeal.KernelValue

open Idealize.ShloMosaic Idealize.ShloMosaic.TcCoe Idealize.ShloMosaic.ValueIdx Idealize.SL.Sem Cert.KernelIdeal Cert.KernelIdeal.Gen
open Idealize.ShloMosaic.Pipeline (Dat)
open scoped BigOperators

variable (m : (ℓ : Loc nD τ sig) → Buf (Elt Ideal) ℓ)

/-- The grid has 128 points. -/
theorem tlt (t : Fin cfg0.N) : t.val < 128 := lt_of_lt_of_eq t.isLt N_0

/-- Point t of the grid is (row block t / 16, column block t / 4 mod 4, contraction step t mod 4): the block index of
    each window at t, decided over the 128 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The four argument arrays of the memory, at their literal types. -/
abbrev ax (c : Dev nD) : S8192x4096.Idx → EReal := m ((c : Thread nD τ).loc main_arg0)
abbrev av (c : Dev nD) : S1024.Idx → EReal := m ((c : Thread nD τ).loc main_arg1)
abbrev ab (c : Dev nD) : S4096.Idx → EReal := m ((c : Thread nD τ).loc main_arg2)
abbrev aw (c : Dev nD) : S4096x4096.Idx → BitVec 32 := m ((c : Thread nD τ).loc main_arg3)

/-- The three input blocks at a point, at their literal shapes. -/
abbrev xblk (c : Dev nD) (t : Fin cfg0.N) : S1024x1024.Idx → EReal := iblk m c 0 t
abbrev wblk (c : Dev nD) (t : Fin cfg0.N) : S1024x1024.Idx → EReal := iblk m c 1 t
abbrev bblk (c : Dev nD) (t : Fin cfg0.N) : S1x1024.Idx → EReal := iblk m c 2 t

/-- Entry (p, r) of block t of an [8192, 4096] array staged by the first window is the array at row
    1024·(t / 16) + p, column 1024·(t mod 4) + r. -/
theorem read_x (c : Dev nD) (A : Buf (Elt Ideal) ((c : Thread nD τ).loc main_v3)) (t : Fin cfg0.N) (p r : Fin 1024) :
    ((cfg0.win 0).blk t).view.read (Elt Ideal) A (ix2 p r)
      = A (ix2 (⟨1024 * (t.val / 16) + p.val, by have := tlt t; omega⟩ : Fin 8192) (⟨1024 * (t.val % 4) + r.val, by omega⟩ : Fin 4096)) := by
  obtain ⟨e0, e1, -⟩ := idx_facts t
  show A (((cfg0.win 0).blk t).view.emb (ix2 p r)) = _
  refine congrArg A ?_
  funext a; apply Fin.ext
  match a with
  | ⟨0, _⟩ => show win0_0.index t (0 : Fin 2) * 1024 + 1 * p.val = 1024 * (t.val / 16) + p.val; omega
  | ⟨1, _⟩ => show win0_0.index t (1 : Fin 2) * 1024 + 1 * r.val = 1024 * (t.val % 4) + r.val; omega

/-- Entry (r, q) of block t of a [4096, 4096] array staged by the second window is the array at row
    1024·(t mod 4) + r, column 1024·(t / 4 mod 4) + q. -/
theorem read_w (c : Dev nD) (A : Buf (Elt Ideal) ((c : Thread nD τ).loc main_v2)) (t : Fin cfg0.N) (r q : Fin 1024) :
    ((cfg0.win 1).blk t).view.read (Elt Ideal) A (ix2 r q)
      = A (ix2 (⟨1024 * (t.val % 4) + r.val, by omega⟩ : Fin 4096) (⟨1024 * (t.val / 4 % 4) + q.val, by omega⟩ : Fin 4096)) := by
  obtain ⟨-, -, e0, e1, -⟩ := idx_facts t
  show A (((cfg0.win 1).blk t).view.emb (ix2 r q)) = _
  refine congrArg A ?_
  funext a; apply Fin.ext
  match a with
  | ⟨0, _⟩ => show win0_1.index t (0 : Fin 2) * 1024 + 1 * r.val = 1024 * (t.val % 4) + r.val; omega
  | ⟨1, _⟩ => show win0_1.index t (1 : Fin 2) * 1024 + 1 * q.val = 1024 * (t.val / 4 % 4) + q.val; omega

/-- Entry (0, q) of block t of a [1, 4096] row staged by the third window is the row at column 1024·(t / 4 mod 4) + q. -/
theorem read_b (c : Dev nD) (A : Buf (Elt Ideal) ((c : Thread nD τ).loc main_v4)) (t : Fin cfg0.N) (q : Fin 1024) :
    ((cfg0.win 2).blk t).view.read (Elt Ideal) A (ix2 (0 : Fin 1) q)
      = A (ix2 (0 : Fin 1) (⟨1024 * (t.val / 4 % 4) + q.val, by omega⟩ : Fin 4096)) := by
  obtain ⟨-, -, -, -, e0, e1, -⟩ := idx_facts t
  show A (((cfg0.win 2).blk t).view.emb (ix2 (0 : Fin 1) q)) = _
  refine congrArg A ?_
  funext a; apply Fin.ext
  match a with
  | ⟨0, _⟩ => show win0_2.index t (0 : Fin 2) * 1 + 1 * 0 = 0; omega
  | ⟨1, _⟩ => show win0_2.index t (1 : Fin 2) * 1024 + 1 * q.val = 1024 * (t.val / 4 % 4) + q.val; omega

/-- The three input blocks at a point, read off the arrays the region finds. -/
theorem xblk_apply (c : Dev nD) (t : Fin cfg0.N) (p r : Fin 1024) :
    xblk m c t (ix2 p r) = V m c main_v3 (ix2 (⟨1024 * (t.val / 16) + p.val, by have := tlt t; omega⟩ : Fin 8192) (⟨1024 * (t.val % 4) + r.val, by omega⟩ : Fin 4096)) :=
  read_x c (V m c main_v3) t p r
theorem wblk_apply (c : Dev nD) (t : Fin cfg0.N) (r q : Fin 1024) :
    wblk m c t (ix2 r q) = V m c main_v2 (ix2 (⟨1024 * (t.val % 4) + r.val, by omega⟩ : Fin 4096) (⟨1024 * (t.val / 4 % 4) + q.val, by omega⟩ : Fin 4096)) :=
  read_w c (V m c main_v2) t r q
theorem bblk_apply (c : Dev nD) (t : Fin cfg0.N) (q : Fin 1024) :
    bblk m c t (ix2 (0 : Fin 1) q) = V m c main_v4 (ix2 (0 : Fin 1) (⟨1024 * (t.val / 4 % 4) + q.val, by omega⟩ : Fin 4096)) :=
  read_b c (V m c main_v4) t q

/-- The product of the two input blocks at point n, at entry y: the sum over the block's 1024 contraction indices.
    (Past the grid it is zero; those values are never used.) -/
def M (c : Dev nD) (n : ℕ) (y : S1024x1024.Idx) : EReal :=
  if h : n < cfg0.N then ∑ r : Fin 1024, xblk m c ⟨n, h⟩ (ix2 (y 0) r) * wblk m c ⟨n, h⟩ (ix2 r (y 1)) else 0

/-- At a first step of the contraction the accumulator ends at zero plus the block product, whatever it held. -/
theorem step_reset (c : Dev nD) (n : ℕ) (hb : n < cfg0.N) (h0 : n % 4 = 0) (acc : Vec Ideal S1024x1024 .f32) (y : S1024x1024.Idx) :
    Value.scAt0_0 m c n hb acc y = 0 + M m c n y := by
  obtain ⟨p, q, rfl⟩ : ∃ p q, y = ix2 p q := ⟨y 0, y 1, eq_ix2 y⟩
  unfold Value.scAt0_0
  rw [dif_pos h0, dif_neg (by omega), Pieces.scratch_A, Payload.pay2_apply, Payload.pay1_apply]
  unfold M
  rw [dif_pos hb]

/-- At every later step it ends at what it held plus the block product. -/
theorem step_add (c : Dev nD) (n : ℕ) (hb : n < cfg0.N) (h0 : ¬n % 4 = 0) (acc : Vec Ideal S1024x1024 .f32) (y : S1024x1024.Idx) :
    Value.scAt0_0 m c n hb acc y = acc y + M m c n y := by
  obtain ⟨p, q, rfl⟩ : ∃ p q, y = ix2 p q := ⟨y 0, y 1, eq_ix2 y⟩
  unfold Value.scAt0_0
  rw [dif_neg h0]
  by_cases h1 : n % 4 = 3
  · rw [dif_pos h1, Pieces.scratch_C, Payload.pay2_apply]
    unfold M
    rw [dif_pos hb]
  · rw [dif_neg h1, Pieces.scratch_B, Payload.pay2_apply]
    unfold M
    rw [dif_pos hb]

/-- After point t the accumulator holds the sum of the block products of the steps of t's run so far: the run starts
    at 4·(t / 4), and t is its step t mod 4. -/
theorem scratch_after (c : Dev nD) (t : Fin cfg0.N) (y : S1024x1024.Idx) :
    (outsAt0 m c t.val t.isLt).2 y = 0 + ∑ s ∈ Finset.range (t.val % 4 + 1), M m c (4 * (t.val / 4) + s) y := by
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (M m c) (4 * (t.val / 4)) 3
    (fun h i => step_reset m c _ h (by omega) _ i)
    (fun n h acc i hlt hle => step_add m c n h (by omega) acc i)
    (t.val % 4) (by omega) _ y

/-! ## The block written back is a block of the specification -/

/-- The specification at the memory's four argument arrays. -/
abbrev Gm (c : Dev nD) : S8192x4096.Idx → EReal := Cert.Spec.G (ax m c) (av m c) (ab m c) (aw m c)

/-- At a last step the output block is the accumulator just stored plus the bias row. -/
theorem out_at_last (c : Dev nD) (t : Fin cfg0.N) (h0 : ¬t.val % 4 = 0) (h1 : t.val % 4 = 3) (p q : Fin 1024) :
    (outsAt0 m c t.val t.isLt).1 (ix2 p q) = (outsAt0 m c t.val t.isLt).2 (ix2 p q) + bblk m c t (ix2 (0 : Fin 1) q) := by
  rw [outsAt0_C m c t h0 h1]
  dsimp only
  rw [Pieces.out_C, Pieces.scratch_C, Payload.pay3_apply]

/-- One term of the contraction depends only on the row of x, the row of the index words and the contraction index. -/
theorem term_congr (x : S8192x4096.Idx → EReal) (vals : S1024.Idx → EReal) (w : S4096x4096.Idx → BitVec 32)
    (b b' : Fin 8192) (k k' o o' : Fin 4096) (hb : b = b') (hk : k = k') (ho : o = o') :
    x (ix2 b k) * Cert.Spec.look vals (w (ix2 o k)) = x (ix2 b' k') * Cert.Spec.look vals (w (ix2 o' k')) := by
  subst hb hk ho; rfl

/-- Step s of the run that ends at the last step t: its block product at (p, q) is the reference's terms over the
    s-th run of 1024 contraction indices, at row 1024·(t / 16) + p of x and row 1024·(t / 4 mod 4) + q of the index
    words. The weights the region finds are the codebook read at the transposed index words, every word being in range. -/
theorem M_run (c : Dev nD) (hr : Cert.Spec.InRange (m ((c : Thread nD τ).loc main_arg3))) (t : Fin cfg0.N) (h1 : t.val % 4 = 3)
    (s : Fin 4) (p q : Fin 1024) :
    M m c (4 * (t.val / 4) + s.val) (ix2 p q)
      = ∑ r : Fin 1024,
          ax m c
              (ix2 (⟨1024 * (t.val / 16) + p.val, by have := tlt t; omega⟩ : Fin 8192) (⟨1024 * s.val + r.val, Cert.Spec.run_lt s r⟩ : Fin 4096))
            * Cert.Spec.look (av m c)
                (aw m c
                  (ix2 (⟨1024 * (t.val / 4 % 4) + q.val, by omega⟩ : Fin 4096) (⟨1024 * s.val + r.val, Cert.Spec.run_lt s r⟩ : Fin 4096))) := by
  have ht := tlt t
  have hs := s.isLt
  have hn : 4 * (t.val / 4) + s.val < cfg0.N := lt_of_lt_of_eq (by omega) N_0.symm
  unfold M
  rw [dif_pos hn]
  refine Finset.sum_congr rfl fun r _ => ?_
  rw [xblk_apply, wblk_apply, HostSide.V_x, HostSide.V_w m c hr]
  refine term_congr (ax m c) (av m c) (aw m c) _ _ _ _ _ _ (Fin.ext ?_) (Fin.ext ?_) (Fin.ext ?_)
  · show 1024 * ((4 * (t.val / 4) + s.val) / 16) + p.val = 1024 * (t.val / 16) + p.val; omega
  · show 1024 * ((4 * (t.val / 4) + s.val) % 4) + r.val = 1024 * s.val + r.val; omega
  · show 1024 * ((4 * (t.val / 4) + s.val) / 4 % 4) + q.val = 1024 * (t.val / 4 % 4) + q.val; omega

/-- WHAT A WRITING POINT WRITES BACK is its block of the specification: the accumulator holds the four block products
    of its run, which regroup into the contraction over all 4096 indices, and the bias row is the bias. -/
theorem flushed_eq (c : Dev nD) (hr : Cert.Spec.InRange (m ((c : Thread nD τ).loc main_arg3))) (t : Fin cfg0.N)
    (hf : (cfg0.win 3).flush t = true) :
    (dats m 0 c).flushed 3 t = ((cfg0.win 3).blk t).view.read (Elt Ideal) (Gm m c) := by
  have h1 : t.val % 4 = 3 := (flush0_3 t).mp hf
  have h0 : ¬t.val % 4 = 0 := by omega
  have ht := tlt t
  obtain ⟨-, -, -, -, -, -, e0, e1⟩ := idx_facts t
  rw [Value.flushed3 m c t]
  funext y
  obtain ⟨p, q, rfl⟩ : ∃ p q, y = ix2 p q := ⟨y 0, y 1, eq_ix2 y⟩
  show (outsAt0 m c t.val t.isLt).1 (ix2 p q) = Gm m c (((cfg0.win 3).blk t).view.emb (ix2 p q))
  have hemb : ((cfg0.win 3).blk t).view.emb (ix2 p q)
      = ix2 (⟨1024 * (t.val / 16) + p.val, by omega⟩ : Fin 8192) (⟨1024 * (t.val / 4 % 4) + q.val, by omega⟩ : Fin 4096) := by
    funext a; apply Fin.ext
    match a with
    | ⟨0, _⟩ => show win0_3.index t (0 : Fin 2) * 1024 + 1 * p.val = 1024 * (t.val / 16) + p.val; omega
    | ⟨1, _⟩ => show win0_3.index t (1 : Fin 2) * 1024 + 1 * q.val = 1024 * (t.val / 4 % 4) + q.val; omega
  rw [hemb, out_at_last m c t h0 h1, scratch_after, bblk_apply, HostSide.V_b, h1, zero_add]
  show _ + ab m c (ix1 _) = (∑ k : Fin 4096, _) + ab m c (ix1 _)
  refine congrArg (· + ab m c (ix1 _)) ?_
  exact Cert.Spec.sum_range4x1024 (fun k => ax m c (ix2 _ k) * Cert.Spec.look (av m c) (aw m c (ix2 _ k))) (fun s => M m c (4 * (t.val / 4) + s) (ix2 p q)) (fun s => M_run m c hr t h1 s p q)

/-- An index of the result array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- Every entry (b, o) of the result is written by the last step of the run of row block b / 1024 and column block o / 1024. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  refine ⟨⟨16 * ((i 0).val / 1024) + 4 * ((i 1).val / 1024) + 3, lt_of_lt_of_eq (by omega) N_0.symm⟩, ?_, ?_⟩
  · refine (flush0_3 _).mpr ?_
    show (16 * ((i 0).val / 1024) + 4 * ((i 1).val / 1024) + 3) % 4 = 3
    omega
  · rw [mem_blk]
    obtain ⟨-, -, -, -, -, -, e0, e1⟩ := idx_facts ⟨16 * ((i 0).val / 1024) + 4 * ((i 1).val / 1024) + 3, lt_of_lt_of_eq (by omega) N_0.symm⟩
    intro a
    match a with
    | ⟨0, _⟩ =>
      show win0_3.index _ (0 : Fin 2) * 1024 ≤ (i 0).val ∧ (i 0).val < win0_3.index _ (0 : Fin 2) * 1024 + 1024
      rw [e0]
      show (16 * ((i 0).val / 1024) + 4 * ((i 1).val / 1024) + 3) / 16 * 1024 ≤ (i 0).val ∧ (i 0).val < (16 * ((i 0).val / 1024) + 4 * ((i 1).val / 1024) + 3) / 16 * 1024 + 1024
      omega
    | ⟨1, _⟩ =>
      show win0_3.index _ (1 : Fin 2) * 1024 ≤ (i 1).val ∧ (i 1).val < win0_3.index _ (1 : Fin 2) * 1024 + 1024
      rw [e1]
      show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
      omega

/-- THE RESULT ARRAY after the run is the specification of the argument arrays. -/
theorem final (c : Dev nD) (hr : Cert.Spec.InRange (m ((c : Thread nD τ).loc main_arg3))) :
    (dats m 0 c).arrAt 3 cfg0.N = Gm m c :=
  (dats m 0 c).arrAt_eq_of_cover 3 (Gm m c) (fun t hf => flushed_eq m c hr t hf) covered

/-- The kernel's run, read: the result array at the specification, the four arguments unchanged. -/
theorem run (ρ : Dev nD → PrngReg) (hr : ∀ c : Dev nD, Cert.Spec.InRange (m ((c : Thread nD τ).loc main_arg3))) :
    θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.KernelIdeal.KernelValue

end
-- ==== Proof.RefSide.lean ====
/-
  The reference's result is the specification: entry (b, o) is the row b of x against the looked-up row o of the
  weights, plus the bias at o.
-/
import proofs.«430650_j62826781606456_1_alg».proof.Proof.Gen.ReferenceIdeal.Read
import proofs.«430650_j62826781606456_1_alg».proof.Proof.Spec

noncomputable section

namespace Cert.RefSide

open Idealize.ShloMosaic Idealize.ShloMosaic.ValueIdx Cert.ReferenceIdeal Cert.ReferenceIdeal.Read
open scoped BigOperators

/-- The word the gather starts from at (o, k): the index word at (o, k) with 1024 added when it is negative. The
    comparison is against the broadcast constant 0 and the addend is the broadcast constant 1024. -/
theorem wrapped_word (x3 : S4096x4096.Idx → BitVec 32) (y : S4096x4096.Idx) :
    val_main_v4 (F := Ideal) x3 y = Cert.Spec.wrapW (x3 y) := by
  rw [val_main_v4_apply, val_main_v1_apply, val_main_v3_apply, val_main_v0_apply, val_main_v2_apply,
    val_main_c_apply, val_main_c_0_apply]
  rfl

/-- The start-index array [4096, 4096, 1] at (o, k, 0) is the wrapped word at (o, k): the trailing axis of size one
    carries no information. -/
theorem start_word (x3 : S4096x4096.Idx → BitVec 32) (y : S4096x4096.Idx) :
    val_main_v5 (F := Ideal) x3 (takeIdx y) = Cert.Spec.wrapW (x3 y) := by
  rw [val_main_v5_apply]
  have e : idx_main_v5 (takeIdx y) = y := funext fun a => Fin.ext (by
    match a with
    | ⟨0, _⟩ => rfl
    | ⟨1, _⟩ => rfl)
  rw [e, wrapped_word]

/-- The looked-up weight at (o, k): the gather of a flat table at a [4096, 4096, 1] array of start indices reads the
    table at the start index, taken signed and clamped into [0, 1023]. -/
theorem weight_apply (x1 : S1024.Idx → EReal) (x3 : S4096x4096.Idx → BitVec 32) (y : S4096x4096.Idx) :
    val_main_v6 (F := Ideal) x1 x3 y = Cert.Spec.look x1 (x3 y) := by
  unfold val_main_v6
  show Host.gather (takeDims 1024 4096 4096 Facts₀.gather_S1024_S4096x4096x1_S4096x4096_n_0_n_n_0_2_1_wf) x1
    (val_main_v5 (F := Ideal) x3) y = _
  rw [gather_take_apply (by decide)]
  refine congrArg x1 (congrArg ix1 (Fin.ext ?_))
  show min (val_main_v5 (F := Ideal) x3 (takeIdx y)).toInt.toNat (1024 - 1) = min (Cert.Spec.wrapW (x3 y)).toInt.toNat 1023
  rw [start_word]

theorem ref_eq (x0 : S8192x4096.Idx → EReal) (x1 : S1024.Idx → EReal) (x2 : S4096.Idx → EReal) (x3 : S4096x4096.Idx → BitVec 32) :
    val_main_v10 (F := Ideal) x0 x1 x2 x3 = Cert.Spec.G x0 x1 x2 x3 := by
  funext i
  -- the result index by its two coordinates: row b of the activations, output column o
  obtain ⟨b, o, rfl⟩ : ∃ (b : Fin 8192) (o : Fin 4096), i = ix2 b o := ⟨i 0, i 1, eq_ix2 i⟩
  rw [val_main_v10_apply, val_main_v7_apply, val_main_v9_apply, val_main_v8_apply]
  -- the contraction reads x at (b, k) and the weights at (o, k); the bias is read at o
  have el : ∀ k : Fin 4096, lidx_main_v7 (ix2 b o) k = ix2 b k := fun k => funext fun a => Fin.ext (by
    match a with
    | ⟨0, _⟩ => rfl
    | ⟨1, _⟩ => rfl)
  have er : ∀ k : Fin 4096, ridx_main_v7 (ix2 b o) k = ix2 o k := fun k => funext fun a => Fin.ext (by
    match a with
    | ⟨0, _⟩ => rfl
    | ⟨1, _⟩ => rfl)
  have eb : idx_main_v8 (idx_main_v9 (ix2 b o)) = ix1 o := funext fun a => Fin.ext (by
    match a with
    | ⟨0, _⟩ => rfl)
  rw [eb]
  -- on the extended reals the float addition is +
  show (∑ k : Fin 4096, x0 (lidx_main_v7 (ix2 b o) k) * val_main_v6 (F := Ideal) x1 x3 (ridx_main_v7 (ix2 b o) k))
      + x2 (ix1 o)
    = (∑ k : Fin 4096, x0 (ix2 b k) * Cert.Spec.look x1 (x3 (ix2 o k))) + x2 (ix1 o)
  refine congrArg (· + x2 (ix1 o)) (Finset.sum_congr rfl fun k _ => ?_)
  rw [el, er, weight_apply]

end Cert.RefSide

end
-- ==== Proof.PreRange.lean ====
/-
  The precondition's two integer conjuncts say that every index word lies in [-1024, 1024).

  The precondition is one bit: the conjunction of five bits, each of which is the conjunction, over all entries of one
  array, of a comparison at that entry. A conjunction of bits is 1 only if each of them is 1, so the whole being 1 gives
  in particular, for every position i of the index array,

      (w_idx i ≥ -1024) = 1   and   (w_idx i < 1024) = 1,

  both comparisons signed. The word 4294966272 is -1024 read signed (2³² - 1024), and a signed comparison bit is 1
  exactly when the signed values are so ordered. The three conjuncts about the real arrays are not used.
-/
import proofs.«430650_j62826781606456_1_alg».proof.Pre_finite_inputs
import proofs.«430650_j62826781606456_1_alg».proof.Proof.Spec
import Idealize.ShloMosaic.Lib.ReduceAll
import Idealize.ShloMosaic.Lib.StableHlo.Predicate

noncomputable section

namespace Cert.PreSide

open Idealize.ShloMosaic Idealize.ShloMosaic.ValueIdx Cert.Pre_finite_inputs

variable {F : FTy → Type} [FloatOps F]

theorem inRange [Cert.Pre_finite_inputs.Facts] (x0 : FVec F S8192x4096 .f32) (x1 : FVec F S1024 .f32) (x2 : FVec F S4096 .f32)
    (x3 : IVec S4096x4096 32) (h : Cert.Pre_finite_inputs.fn (F := F) x0 x1 x2 x3 = fun _ => 1#1) :
    Cert.Spec.InRange x3 := by
  -- a shape of rank 0 has exactly one index
  haveI : Subsingleton S_.Idx := ⟨fun a b => funext fun d => d.elim0⟩
  -- the precondition's bit, as the nested conjunction ((((x ∧ values) ∧ bias) ∧ lower) ∧ upper)
  have h0 := congrFun h ValueIdx.ix0
  dsimp only [fn, fn_part1] at h0
  -- a conjunction is 1 only if both sides are: keep the last two conjuncts
  obtain ⟨hA, hlt⟩ := IntOp.andi_eq_one.1 h0
  obtain ⟨_, hge⟩ := IntOp.andi_eq_one.1 hA
  intro i
  -- a conjunction over all entries is 1 only if the entry at i is
  have hg := Host.reduce_andi_all _ _ _ _ _ hge i
  have hl := Host.reduce_andi_all _ _ _ _ _ hlt i
  -- the array compared against is constant, so at i it is that constant; a signed comparison bit orders the signed values
  have eg : (4294966272#32 : BitVec 32).toInt ≤ (x3 i).toInt := IntOp.cmpi_sge.1 hg
  have el : (x3 i).toInt < (1024#32 : BitVec 32).toInt := IntOp.cmpi_slt.1 hl
  -- 4294966272 = 2³² - 1024 is -1024 read signed
  have clo : (4294966272#32 : BitVec 32).toInt = -1024 := by decide
  have chi : (1024#32 : BitVec 32).toInt = 1024 := by decide
  rw [clo] at eg
  rw [chi] at el
  exact ⟨eg, el⟩

end Cert.PreSide

end
-- ==== Proof.lean ====
/-
  The codebook linear layer: out (b, o) = Σ_{k < 4096} x (b, k) · values[w_idx (o, k)] + bias o, over the extended reals.

  Both programs compute this one function of the four arguments (Proof/Spec.lean's `G`). The reference gathers the
  weight matrix from the codebook and contracts it against x in one product; reading its operations at an entry gives
  `G` directly (Proof/RefSide.lean). The kernel gathers the transposed weights on the host, with out-of-range reads
  replaced by a fill value, and contracts in four blocks of 1024 accumulated in a scratch buffer, adding the bias at the
  last block (Proof/KernelValue.lean, over Proof/Pieces.lean, Proof/Payload.lean and Proof/HostSide.lean). The two agree
  wherever no read is out of range: the precondition bounds every index word to [-1024, 1024), the range in which
  indexing a table of 1024 entries is defined (Proof/PreRange.lean), and there the fill is never selected. The
  regrouping of the contraction into four blocks uses only that addition of extended reals is associative and
  commutative, so finiteness of the float inputs is not used. The three frames are the generated ones (the reference's
  is its run with the result dropped), and nothing was rewritten by the idealization, so `preserves` is trivial.
-/
import proofs.«430650_j62826781606456_1_alg».proof.Defs
import proofs.«430650_j62826781606456_1_alg».proof.Proof.Gen.Kernel
import proofs.«430650_j62826781606456_1_alg».proof.Proof.Gen.Kernel.Skeleton
import proofs.«430650_j62826781606456_1_alg».proof.Proof.Gen.Kernel.Launch
import proofs.«430650_j62826781606456_1_alg».proof.Proof.Gen.Kernel.Points
import proofs.«430650_j62826781606456_1_alg».proof.Proof.Gen.Kernel.Frame
import proofs.«430650_j62826781606456_1_alg».proof.Proof.Gen.KernelIdeal
import proofs.«430650_j62826781606456_1_alg».proof.Proof.Gen.KernelIdeal.Skeleton
import proofs.«430650_j62826781606456_1_alg».proof.Proof.Gen.KernelIdeal.Launch
import proofs.«430650_j62826781606456_1_alg».proof.Proof.Gen.KernelIdeal.Points
import proofs.«430650_j62826781606456_1_alg».proof.Proof.Gen.KernelIdeal.Frame
import proofs.«430650_j62826781606456_1_alg».proof.Proof.Gen.ReferenceIdeal
import proofs.«430650_j62826781606456_1_alg».proof.Proof.Gen.Pre_finite_inputs
import proofs.«430650_j62826781606456_1_alg».proof.Proof.Gen.KernelIdeal.Value
import proofs.«430650_j62826781606456_1_alg».proof.Proof.Gen.ReferenceIdeal.Run
import proofs.«430650_j62826781606456_1_alg».proof.Proof.Gen.ReferenceIdeal.Read
import proofs.«430650_j62826781606456_1_alg».proof.Proof.KernelValue
import proofs.«430650_j62826781606456_1_alg».proof.Proof.RefSide
import proofs.«430650_j62826781606456_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, with every index word in range, both programs end with the result
    array at the specification of those arguments. -/
theorem algebraic : Cert.algebraic_KernelIdeal_ReferenceIdeal := by
  intro m ρ m' ρ' hpre hagree
  have hr : ∀ c : Dev Cert.KernelIdeal.nD,
      Cert.Spec.InRange (m ((c : Thread Cert.KernelIdeal.nD Cert.KernelIdeal.τ).loc Cert.KernelIdeal.main_arg3)) :=
    fun c => Cert.PreSide.inRange _ _ _ _ (hpre c)
  refine ⟨fun c => Cert.KernelIdeal.KernelValue.Gm m c, Cert.KernelIdeal.KernelValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v10_eq _ _ _ _).trans (Cert.RefSide.ref_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
